-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩

abbrev nBuf : Space → Nat
  | .hbm => 125
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000, .i32⟩
  | .hbm, ⟨12, _⟩ => ⟨S850000, .i32⟩
  | .hbm, ⟨13, _⟩ => ⟨S850000, .i32⟩
  | .hbm, ⟨14, _⟩ => ⟨S_, .f32⟩
  | .hbm, ⟨15, _⟩ => ⟨S50000, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000, .i32⟩
  | .hbm, ⟨69, _⟩ => ⟨S850000, .i32⟩
  | .hbm, ⟨70, _⟩ => ⟨S850000, .i32⟩
  | .hbm, ⟨71, _⟩ => ⟨S_, .f32⟩
  | .hbm, ⟨72, _⟩ => ⟨S50000, .f32⟩
  | .hbm, ⟨73, _⟩ => ⟨S850000, .f32⟩
  | .hbm, ⟨74, _⟩ => ⟨S_, .f32⟩
  | .hbm, ⟨75, _⟩ => ⟨S50000, .f32⟩
  | .hbm, ⟨76, _⟩ => ⟨S850000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S50000, .f32⟩
  | .hbm, ⟨82, _⟩ => ⟨S_, .f32⟩
  | .hbm, ⟨83, _⟩ => ⟨S_, .f32⟩
  | .hbm, ⟨84, _⟩ => ⟨S50000, .f32⟩
  | .hbm, ⟨85, _⟩ => ⟨S50000, .f32⟩
  | .hbm, ⟨86, _⟩ => ⟨S_, .i32⟩
  | .hbm, ⟨87, _⟩ => ⟨S850000, .i32⟩
  | .hbm, ⟨88, _⟩ => ⟨S850000, .i1⟩
  | .hbm, ⟨89, _⟩ => ⟨S_, .i32⟩
  | .hbm, ⟨90, _⟩ => ⟨S850000, .i32⟩
  | .hbm, ⟨91, _⟩ => ⟨S850000, .i32⟩
  | .hbm, ⟨92, _⟩ => ⟨S850000, .i32⟩
  | .hbm, ⟨93, _⟩ => ⟨S850000x1, .i32⟩
  | .hbm, ⟨94, _⟩ => ⟨S850000, .f32⟩
  | .hbm, ⟨95, _⟩ => ⟨S850000, .f32⟩
  | .hbm, ⟨96, _⟩ => ⟨S_, .i32⟩
  | .hbm, ⟨97, _⟩ => ⟨S850000, .i32⟩
  | .hbm, ⟨98, _⟩ => ⟨S850000, .i1⟩
  | .hbm, ⟨99, _⟩ => ⟨S_, .i32⟩
  | .hbm, ⟨100, _⟩ => ⟨S850000, .i32⟩
  | .hbm, ⟨101, _⟩ => ⟨S850000, .i32⟩
  | .hbm, ⟨102, _⟩ => ⟨S850000, .i32⟩
  | .hbm, ⟨103, _⟩ => ⟨S850000x1, .i32⟩
  | .hbm, ⟨104, _⟩ => ⟨S850000, .f32⟩
  | .hbm, ⟨105, _⟩ => ⟨S850000, .f32⟩
  | .hbm, ⟨106, _⟩ => ⟨S50000x128, .f32⟩
  | .hbm, ⟨107, _⟩ => ⟨S_, .i32⟩
  | .hbm, ⟨108, _⟩ => ⟨S850000, .i32⟩
  | .hbm, ⟨109, _⟩ => ⟨S850000, .i1⟩
  | .hbm, ⟨110, _⟩ => ⟨S_, .i32⟩
  | .hbm, ⟨111, _⟩ => ⟨S850000, .i32⟩
  | .hbm, ⟨112, _⟩ => ⟨S850000, .i32⟩
  | .hbm, ⟨113, _⟩ => ⟨S850000, .i32⟩
  | .hbm, ⟨114, _⟩ => ⟨S850000x1, .i32⟩
  | .hbm, ⟨115, _⟩ => ⟨S850000x128, .f32⟩
  | .hbm, ⟨116, _⟩ => ⟨S850000x1, .f32⟩
  | .hbm, ⟨117, _⟩ => ⟨S850000x128, .f32⟩
  | .hbm, ⟨118, _⟩ => ⟨S850000x128, .f32⟩
  | .hbm, ⟨119, _⟩ => ⟨S_, .f32⟩
  | .hbm, ⟨120, _⟩ => ⟨S50000x128, .f32⟩
  | .hbm, ⟨121, _⟩ => ⟨S850000x1, .i32⟩
  | .hbm, ⟨122, _⟩ => ⟨S50000x128, .f32⟩
  | .hbm, ⟨123, _⟩ => ⟨S1x128, .f32⟩
  | .hbm, ⟨124, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_11 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_call1_v0 : Ref sig .tc := ⟨.hbm, 83, rfl⟩
abbrev main_call1_v1 : Ref sig .tc := ⟨.hbm, 84, rfl⟩
abbrev main_v59 : Ref sig .tc := ⟨.hbm, 85, rfl⟩
abbrev main_c_13 : Ref sig .tc := ⟨.hbm, 86, rfl⟩
abbrev main_v60 : Ref sig .tc := ⟨.hbm, 87, rfl⟩
abbrev main_v61 : Ref sig .tc := ⟨.hbm, 88, rfl⟩
abbrev main_c_14 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_15 : Ref sig .tc := ⟨.hbm, 96, rfl⟩
abbrev main_v68 : Ref sig .tc := ⟨.hbm, 97, rfl⟩
abbrev main_v69 : Ref sig .tc := ⟨.hbm, 98, rfl⟩
abbrev main_c_16 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_c_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v76) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩

abbrev nBuf : Space → Nat
  | .hbm => 133
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S128x128, .f32⟩
  | 4 => ⟨S128, .f32⟩
  | 5 => ⟨S128x128, .f32⟩
  | 6 => ⟨S128, .f32⟩
  | 7 => ⟨S1x800000, .i32⟩
  | 8 => ⟨S800000, .i32⟩
  | 9 => ⟨S1x800000, .i32⟩
  | 10 => ⟨S800000, .i32⟩
  | 11 => ⟨S50000, .i32⟩
  | 12 => ⟨S850000, .i32⟩
  | 13 => ⟨S850000, .i32⟩
  | 14 => ⟨S_, .f32⟩
  | 15 => ⟨S50000, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S850000, .i32⟩
  | 31 => ⟨S850000, .i1⟩
  | 32 => ⟨S_, .i32⟩
  | 33 => ⟨S850000, .i32⟩
  | 34 => ⟨S850000, .i32⟩
  | 35 => ⟨S850000, .i32⟩
  | 36 => ⟨S850000x1, .i32⟩
  | 37 => ⟨S850000, .f32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S50000x128, .f32⟩
  | 50 => ⟨S_, .i32⟩
  | 51 => ⟨S850000, .i32⟩
  | 52 => ⟨S850000, .i1⟩
  | 53 => ⟨S_, .i32⟩
  | 54 => ⟨S850000, .i32⟩
  | 55 => ⟨S850000, .i32⟩
  | 56 => ⟨S850000, .i32⟩
  | 57 => ⟨S850000x1, .i32⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000, .i32⟩
  | 73 => ⟨S850000, .i32⟩
  | 74 => ⟨S850000, .i32⟩
  | 75 => ⟨S_, .f32⟩
  | 76 => ⟨S50000, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S850000, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000, .f32⟩
  | 109 => ⟨S850000, .f32⟩
  | 110 => ⟨S50000x128, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x128, .f32⟩
  | 120 => ⟨S850000x1, .f32⟩
  | 121 => ⟨S850000x128, .f32⟩
  | 122 => ⟨S850000x128, .f32⟩
  | 123 => ⟨S_, .f32⟩
  | 124 => ⟨S50000x128, .f32⟩
  | 125 => ⟨S850000x1, .i32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .f32⟩
  | 3 => ⟨S50000x128, .f32⟩
  | 4 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_call3_cst : Ref sig .tc := ⟨.hbm, 130, rfl⟩
abbrev main_call3_v0 : Ref sig .tc := ⟨.hbm, 131, rfl⟩
abbrev main_v95 : Ref sig .tc := ⟨.hbm, 132, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Matmul0.lean ====
/-
  The first product region: ten grid points, point t staging rows 5000·t … 5000·t + 4999 of the left array and the
  whole 128 × 128 right array, and writing back rows 5000·t … of the output. Entry (p, q) of what point t writes is
  ∑ κ < 128, left (5000·t + p, κ) · right (κ, q): the body's product into a zero accumulator, its operands' change
  of float format being the identity on extended reals. That is block t of the whole product of the two arrays, and
  the ten blocks fill the output, so the output array ends as the whole product.
-/
import proofs.«116983_j584115552914_1_alg».proof.Proof.Gen.KernelIdeal.Frame
import proofs.«116983_j584115552914_1_alg».proof.Proof.Gen.ReferenceIdeal
import proofs.«116983_j584115552914_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The block product's dimension numbers are those of a plain matrix product. -/
theorem plain_block : Cert.PlainDot.Plain dot_S5000x128_S128x128_S5000x128_1_0_0_1_n_n := ⟨rfl, rfl, rfl, rfl, rfl, rfl⟩
/-- So are the whole product's. -/
theorem plain_whole : Cert.PlainDot.Plain Cert.ReferenceIdeal.dot_S50000x128_S128x128_S50000x128_1_0_0_1_n_n := ⟨rfl, rfl, rfl, rfl, rfl, rfl⟩

/-- The whole product of a 50000 × 128 array with a 128 × 128 array. -/
abbrev wholeProduct (x : FVec Ideal S50000x128 .f32) (w : FVec Ideal S128x128 .f32) : FVec Ideal S50000x128 .f32 :=
  Host.dotGeneral Cert.ReferenceIdeal.dot_S50000x128_S128x128_S50000x128_1_0_0_1_n_n none x w

/-- Its entry (P, q). -/
theorem wholeProduct_apply (x : FVec Ideal S50000x128 .f32) (w : FVec Ideal S128x128 .f32) (P : Fin 50000) (q : Fin 128) :
    wholeProduct x w (ix2 P q) = ∑ κ : Fin 128, x (ix2 P κ) * w (ix2 κ q) :=
  Cert.PlainDot.dotGeneral_apply plain_whole rfl rfl none x w P q

/-- The body's stored value at entry (p, q) of the block. -/
theorem blockProduct0_apply (x0 : Vec Ideal S5000x128 .f32) (x1 : Vec Ideal S128x128 .f32) (p : Fin 5000) (q : Fin 128) :
    k0_pay1 (F := Ideal) x0 x1 (ix2 p q) = ∑ κ : Fin 128, x0 (ix2 p κ) * x1 (ix2 κ q) := by
  unfold k0_pay1
  exact Cert.PlainDot.matmul_zero_apply plain_block rfl rfl none _ _ p q

/-- One block of the product is the matching rows of the whole product: if the staged left block holds rows
    5000·T … of the left array and the staged right block is the right array, the body's stored value at a block
    entry is the whole product at the entry 5000·T rows further down. -/
theorem block_is_rows0 (x : FVec Ideal S50000x128 .f32) (w : FVec Ideal S128x128 .f32)
    (x0 : Vec Ideal S5000x128 .f32) (x1 : Vec Ideal S128x128 .f32) (T : ℕ) (hT : T ≤ 9)
    (h0 : ∀ (p : Fin 5000) (κ : Fin 128), x0 (ix2 p κ) = x (ix2 (⟨T * 5000 + p.val, by omega⟩ : Fin 50000) κ))
    (h1 : ∀ (κ q : Fin 128), x1 (ix2 κ q) = w (ix2 κ q))
    (j : S5000x128.Idx) (i : S50000x128.Idx) (hi0 : (i 0).val = T * 5000 + (j 0).val) (hi1 : (i 1).val = (j 1).val) :
    k0_pay1 (F := Ideal) x0 x1 j = wholeProduct x w i := by
  obtain ⟨p, q, rfl⟩ : ∃ (p : Fin 5000) (q : Fin 128), j = ix2 p q := ⟨j 0, j 1, eq_ix2 j⟩
  have hi : i = ix2 (⟨T * 5000 + p.val, by omega⟩ : Fin 50000) q := by
    funext a; apply Fin.ext
    match a with
    | ⟨0, _⟩ => exact hi0
    | ⟨1, _⟩ => exact hi1
  rw [hi, blockProduct0_apply, wholeProduct_apply]
  exact Finset.sum_congr rfl fun κ _ => by rw [h0, h1]

/-- The printed index maps over the ten grid points: the left window moves down with the output, the right window
    stays, and the output's block row is below ten. -/
theorem index_facts0 : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every block row below ten is some point's. -/
theorem index_onto0 : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole product of the region's two input arrays. -/
theorem flushed0_eq (c : Dev nD) (t : Fin cfg0.N) :
    (dat0 V c).flushed 2 t = ((cfg0.win 2).blk t).view.read (Elt Ideal) (wholeProduct (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  obtain ⟨e0, e1, e2, e3, e4, e5⟩ := index_facts0 t
  funext j
  refine block_is_rows0 (V c main_arg0) (V c main_arg3) (iblk0 V c 0 t) (iblk0 V c 1 t) (win0_2.index t (0 : Fin 2)) e5 ?_ ?_ j _ ?_ ?_
  · intro p κ
    show V c main_arg0 (((cfg0.win 0).blk t).view.emb (ix2 p κ)) = _
    refine congrArg (V c main_arg0) (funext fun a => Fin.ext ?_)
    match a with
    | ⟨0, _⟩ => show win0_0.index t (0 : Fin 2) * 5000 + 1 * p.val = win0_2.index t (0 : Fin 2) * 5000 + p.val; omega
    | ⟨1, _⟩ => show win0_0.index t (1 : Fin 2) * 128 + 1 * κ.val = κ.val; omega
  · intro κ q
    show V c main_arg3 (((cfg0.win 1).blk t).view.emb (ix2 κ q)) = _
    refine congrArg (V c main_arg3) (funext fun a => Fin.ext ?_)
    match a with
    | ⟨0, _⟩ => show win0_1.index t (0 : Fin 2) * 128 + 1 * κ.val = κ.val; omega
    | ⟨1, _⟩ => show win0_1.index t (1 : Fin 2) * 128 + 1 * q.val = q.val; omega
  · show win0_2.index t (0 : Fin 2) * 5000 + 1 * (j 0).val = win0_2.index t (0 : Fin 2) * 5000 + (j 0).val; omega
  · show win0_2.index t (1 : Fin 2) * 128 + 1 * (j 1).val = (j 1).val; omega

/-- An index of the output array is in point t's block iff each coordinate is in the block's range on its axis. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The ten blocks fill the output array: row r lies in the block of the point whose block row is r / 5000. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its output array is the whole product of its two input arrays as the region found them. -/
theorem product_array0 (c : Dev nD) :
    (dat0 V c).arrAt 2 cfg0.N = wholeProduct (V c main_arg0) (V c main_arg3) :=
  (dat0 V c).arrAt_eq_of_cover 2 (wholeProduct (V c main_arg0) (V c main_arg3)) (fun t _ => flushed0_eq V c t) cover0

end Cert.KernelIdeal.Val

end
-- ==== Proof.Matmul2.lean ====
/-
  The second product region: the same plain product as the first, on the first layer's activations. Its body casts
  the staged left block to its own shape before the product, which changes nothing. Point t writes rows
  5000·t … 5000·t + 4999 of the whole product of the region's two input arrays; the ten blocks fill the output.
-/
import proofs.«116983_j584115552914_1_alg».proof.Proof.Matmul0

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's stored value at entry (p, q) of the block. -/
theorem blockProduct2_apply (x0 : Vec Ideal S5000x128 .f32) (x1 : Vec Ideal S128x128 .f32) (p : Fin 5000) (q : Fin 128) :
    k2_pay1 (F := Ideal) x0 x1 (ix2 p q) = ∑ κ : Fin 128, x0 (ix2 p κ) * x1 (ix2 κ q) := by
  unfold k2_pay1
  rw [shapeCast_self]
  exact Cert.PlainDot.matmul_zero_apply plain_block rfl rfl none _ _ p q

/-- One block of the product is the matching rows of the whole product. -/
theorem block_is_rows2 (x : FVec Ideal S50000x128 .f32) (w : FVec Ideal S128x128 .f32)
    (x0 : Vec Ideal S5000x128 .f32) (x1 : Vec Ideal S128x128 .f32) (T : ℕ) (hT : T ≤ 9)
    (h0 : ∀ (p : Fin 5000) (κ : Fin 128), x0 (ix2 p κ) = x (ix2 (⟨T * 5000 + p.val, by omega⟩ : Fin 50000) κ))
    (h1 : ∀ (κ q : Fin 128), x1 (ix2 κ q) = w (ix2 κ q))
    (j : S5000x128.Idx) (i : S50000x128.Idx) (hi0 : (i 0).val = T * 5000 + (j 0).val) (hi1 : (i 1).val = (j 1).val) :
    k2_pay1 (F := Ideal) x0 x1 j = wholeProduct x w i := by
  obtain ⟨p, q, rfl⟩ : ∃ (p : Fin 5000) (q : Fin 128), j = ix2 p q := ⟨j 0, j 1, eq_ix2 j⟩
  have hi : i = ix2 (⟨T * 5000 + p.val, by omega⟩ : Fin 50000) q := by
    funext a; apply Fin.ext
    match a with
    | ⟨0, _⟩ => exact hi0
    | ⟨1, _⟩ => exact hi1
  rw [hi, blockProduct2_apply, wholeProduct_apply]
  exact Finset.sum_congr rfl fun κ _ => by rw [h0, h1]

/-- The printed index maps over the ten grid points. -/
theorem index_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every block row below ten is some point's. -/
theorem index_onto2 : ∀ q0 : Fin 10, ∃ t : Fin cfg2.N, win2_2.index t = ![q0.val, 0] :=
  (by decide +kernel : ∀ q0 : Fin 10, ∃ t : Fin grid2.N, win2_2.index t = ![q0.val, 0])

/-- What point t writes back is block t of the whole product of the region's two input arrays. -/
theorem flushed2_eq (c : Dev nD) (t : Fin cfg2.N) :
    (dat2 V c).flushed 2 t = ((cfg2.win 2).blk t).view.read (Elt Ideal) (wholeProduct (V c main_v47) (V c main_arg5)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  obtain ⟨e0, e1, e2, e3, e4, e5⟩ := index_facts2 t
  funext j
  refine block_is_rows2 (V c main_v47) (V c main_arg5) (iblk2 V c 0 t) (iblk2 V c 1 t) (win2_2.index t (0 : Fin 2)) e5 ?_ ?_ j _ ?_ ?_
  · intro p κ
    show V c main_v47 (((cfg2.win 0).blk t).view.emb (ix2 p κ)) = _
    refine congrArg (V c main_v47) (funext fun a => Fin.ext ?_)
    match a with
    | ⟨0, _⟩ => show win2_0.index t (0 : Fin 2) * 5000 + 1 * p.val = win2_2.index t (0 : Fin 2) * 5000 + p.val; omega
    | ⟨1, _⟩ => show win2_0.index t (1 : Fin 2) * 128 + 1 * κ.val = κ.val; omega
  · intro κ q
    show V c main_arg5 (((cfg2.win 1).blk t).view.emb (ix2 κ q)) = _
    refine congrArg (V c main_arg5) (funext fun a => Fin.ext ?_)
    match a with
    | ⟨0, _⟩ => show win2_1.index t (0 : Fin 2) * 128 + 1 * κ.val = κ.val; omega
    | ⟨1, _⟩ => show win2_1.index t (1 : Fin 2) * 128 + 1 * q.val = q.val; omega
  · show win2_2.index t (0 : Fin 2) * 5000 + 1 * (j 0).val = win2_2.index t (0 : Fin 2) * 5000 + (j 0).val; omega
  · show win2_2.index t (1 : Fin 2) * 128 + 1 * (j 1).val = (j 1).val; omega

/-- An index of the output array is in point t's block iff each coordinate is in the block's range on its axis. -/
theorem mem_block2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v76).slice (win2_2.rect t)).set ↔ _
  rw [View.set_slice_whole, Rect.mem_set_unit]
  exact Iff.rfl

/-- The ten blocks fill the output array. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := index_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the region its output array is the whole product of its two input arrays as the region found them. -/
theorem product_array2 (c : Dev nD) :
    (dat2 V c).arrAt 2 cfg2.N = wholeProduct (V c main_v47) (V c main_arg5) :=
  (dat2 V c).arrAt_eq_of_cover 2 (wholeProduct (V c main_v47) (V c main_arg5)) (fun t _ => flushed2_eq V c t) cover2

end Cert.KernelIdeal.Val

end
-- ==== Proof.BiasReluSpec.lean ====
/-
  Bias and rectifier over a whole 50000 × 128 array, in the host's spelling: the 1 × 128 bias row broadcast under
  every row and added, then the maximum with a broadcast zero. At entry (P, q) it is
  max (a (P, q) + b (0, q), 0).
-/
import proofs.«116983_j584115552914_1_alg».proof.Proof.Gen.KernelIdeal
import proofs.«116983_j584115552914_1_alg».proof.Proof.Gen.ReferenceIdeal
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

/-- A 50000 × 128 array plus a 1 × 128 row laid under every row of it, then the maximum with zero: the host's
    spelling of bias and rectifier over a whole array. -/
abbrev wholeBiasRelu (a : FVec Ideal S50000x128 .f32) (b : FVec Ideal S1x128 .f32) : FVec Ideal S50000x128 .f32 :=
  maximumf (addf a (broadcastInDim S50000x128 ![0, 1] Cert.ReferenceIdeal.Gen.bcast_S1x128_S50000x128_0_1 b))
    (broadcastInDim S50000x128 ![] bcast_S_S50000x128 (constant (F := Ideal) S_ .f32 0x00000000#32))

/-- Its entry (P, q): the array's entry plus the row's q-th entry, or zero if that is negative. -/
theorem wholeBiasRelu_apply (a : FVec Ideal S50000x128 .f32) (b : FVec Ideal S1x128 .f32) (P : Fin 50000) (q : Fin 128) :
    wholeBiasRelu a b (ix2 P q) = max (a (ix2 P q) + b (ix2 (0 : Fin 1) q)) (Ideal.ofBits .f32 0x00000000#32) := by
  show max (a (ix2 P q) + broadcastInDim S50000x128 ![0, 1] Cert.ReferenceIdeal.Gen.bcast_S1x128_S50000x128_0_1 b (ix2 P q))
      (broadcastInDim S50000x128 ![] bcast_S_S50000x128 (constant (F := Ideal) S_ .f32 0x00000000#32) (ix2 P q)) = _
  rw [broadcastInDim_apply ![0, 1] Cert.ReferenceIdeal.Gen.bcast_S1x128_S50000x128_0_1 b (ix2 P q) (ix2 (0 : Fin 1) q) (fun a => by
        match a with
        | ⟨0, _⟩ => show (0 : ℕ) = if (1 : ℕ) = 1 then 0 else P.val; rw [if_pos rfl]
        | ⟨1, _⟩ => show q.val = if (128 : ℕ) = 1 then 0 else q.val; rw [if_neg (by decide)]),
    broadcastInDim_apply ![] bcast_S_S50000x128 (constant (F := Ideal) S_ .f32 0x00000000#32) (ix2 P q) ix0 (fun a => a.elim0)]
  rfl

end Cert.KernelIdeal.Val

end
-- ==== Proof.BiasRelu1.lean ====
/-
  A bias-and-rectifier region of the program: ten grid points, point t staging rows 5000·t … 5000·t + 4999 of the
  aggregated array and the 1 × 128 bias row, and writing back the same rows of the output. Entry (p, q) of what
  point t writes is max (agg (5000·t + p, q) + bias (0, q), 0). That is block t of the whole-array form, and the
  ten blocks fill the output.
-/
import proofs.«116983_j584115552914_1_alg».proof.Proof.Matmul0
import proofs.«116983_j584115552914_1_alg».proof.Proof.BiasReluSpec

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's stored value at entry (p, q) of the block: the staged block's entry plus the staged row's q-th
    entry, or zero if that is negative (the two shape casts in the body are identities). -/
theorem blockBiasRelu1_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S5000x128 x1 broadcasts_S1x128_S5000x128 (ix2 p q)) (Ideal.ofBits .f32 0x00000000#32) = _
  rw [broadcastTo_apply x1 broadcasts_S1x128_S5000x128 (ix2 p q) (ix2 (0 : Fin 1) q) (fun a => by
        match a with
        | ⟨0, _⟩ => show (0 : ℕ) = if (1 : ℕ) = 1 then 0 else p.val; rw [if_pos rfl]
        | ⟨1, _⟩ => show q.val = if (128 : ℕ) = 1 then 0 else q.val; rw [if_neg (by decide)])]

/-- One block of the result is the matching rows of the whole-array form: if the staged block holds rows 5000·T …
    of the input array and the staged row is the bias row, the body's stored value at a block entry is the
    whole-array form at the entry 5000·T rows further down. -/
theorem block_is_rows1 (a : FVec Ideal S50000x128 .f32) (b : FVec Ideal S1x128 .f32)
    (x0 : Vec Ideal S5000x128 .f32) (x1 : Vec Ideal S1x128 .f32) (T : ℕ) (hT : T ≤ 9)
    (h0 : ∀ (p : Fin 5000) (q : Fin 128), x0 (ix2 p q) = a (ix2 (⟨T * 5000 + p.val, by omega⟩ : Fin 50000) q))
    (h1 : ∀ (q : Fin 128), x1 (ix2 (0 : Fin 1) q) = b (ix2 (0 : Fin 1) q))
    (j : S5000x128.Idx) (i : S50000x128.Idx) (hi0 : (i 0).val = T * 5000 + (j 0).val) (hi1 : (i 1).val = (j 1).val) :
    k1_pay1 (F := Ideal) x0 x1 j = wholeBiasRelu a b i := by
  obtain ⟨p, q, rfl⟩ : ∃ (p : Fin 5000) (q : Fin 128), j = ix2 p q := ⟨j 0, j 1, eq_ix2 j⟩
  have hi : i = ix2 (⟨T * 5000 + p.val, by omega⟩ : Fin 50000) q := by
    funext a; apply Fin.ext
    match a with
    | ⟨0, _⟩ => exact hi0
    | ⟨1, _⟩ => exact hi1
  rw [hi, blockBiasRelu1_apply, wholeBiasRelu_apply, h0, h1]

/-- The printed index maps over the ten grid points: the input window moves down with the output, the bias row
    stays, and the output's block row is below ten. -/
theorem index_facts1 : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every block row below ten is some point's. -/
theorem index_onto1 : ∀ q0 : Fin 10, ∃ t : Fin cfg1.N, win1_2.index t = ![q0.val, 0] :=
  (by decide +kernel : ∀ q0 : Fin 10, ∃ t : Fin grid1.N, win1_2.index t = ![q0.val, 0])

/-- What point t writes back is block t of the whole-array form of the region's two input arrays. -/
theorem flushed1_eq (c : Dev nD) (t : Fin cfg1.N) :
    (dat1 V c).flushed 2 t = ((cfg1.win 2).blk t).view.read (Elt Ideal) (wholeBiasRelu (V c main_v45) (V c main_v46)) := by
  show (cfg1.win 2).cut (grid1.coords t) ((dat1 V c).after 2 t) = _
  rw [after1_2]
  unfold out1_2
  rw [View.canon_unit_zero zero_offsets]
  simp only [View.ld_unit_zero (S := S5000x128) zero_offsets, View.ld_unit_zero (S := S1x128) zero_offsets]
  obtain ⟨e0, e1, e2, e3, e4, e5⟩ := index_facts1 t
  funext j
  refine block_is_rows1 (V c main_v45) (V c main_v46) (iblk1 V c 0 t) (iblk1 V c 1 t) (win1_2.index t (0 : Fin 2)) e5 ?_ ?_ j _ ?_ ?_
  · intro p q
    show V c main_v45 (((cfg1.win 0).blk t).view.emb (ix2 p q)) = _
    refine congrArg (V c main_v45) (funext fun a => Fin.ext ?_)
    match a with
    | ⟨0, _⟩ => show win1_0.index t (0 : Fin 2) * 5000 + 1 * p.val = win1_2.index t (0 : Fin 2) * 5000 + p.val; omega
    | ⟨1, _⟩ => show win1_0.index t (1 : Fin 2) * 128 + 1 * q.val = q.val; omega
  · intro q
    show V c main_v46 (((cfg1.win 1).blk t).view.emb (ix2 (0 : Fin 1) q)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 128 + 1 * q.val = q.val; omega
  · show win1_2.index t (0 : Fin 2) * 5000 + 1 * (j 0).val = win1_2.index t (0 : Fin 2) * 5000 + (j 0).val; omega
  · show win1_2.index t (1 : Fin 2) * 128 + 1 * (j 1).val = (j 1).val; omega

/-- An index of the output array is in point t's block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The ten blocks fill the output array. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the region its output array is the whole-array form of its two input arrays as the region found them. -/
theorem biasRelu_array1 (c : Dev nD) :
    (dat1 V c).arrAt 2 cfg1.N = wholeBiasRelu (V c main_v45) (V c main_v46) :=
  (dat1 V c).arrAt_eq_of_cover 2 (wholeBiasRelu (V c main_v45) (V c main_v46)) (fun t _ => flushed1_eq V c t) cover1

end Cert.KernelIdeal.Val

end
-- ==== Proof.BiasRelu3.lean ====
/-
  A bias-and-rectifier region of the program: ten grid points, point t staging rows 5000·t … 5000·t + 4999 of the
  aggregated array and the 1 × 128 bias row, and writing back the same rows of the output. Entry (p, q) of what
  point t writes is max (agg (5000·t + p, q) + bias (0, q), 0). That is block t of the whole-array form, and the
  ten blocks fill the output.
-/
import proofs.«116983_j584115552914_1_alg».proof.Proof.Matmul0
import proofs.«116983_j584115552914_1_alg».proof.Proof.BiasReluSpec

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's stored value at entry (p, q) of the block: the staged block's entry plus the staged row's q-th
    entry, or zero if that is negative (the two shape casts in the body are identities). -/
theorem blockBiasRelu3_apply (x0 : Vec Ideal S5000x128 .f32) (x1 : Vec Ideal S1x128 .f32) (p : Fin 5000) (q : Fin 128) :
    k3_pay1 (F := Ideal) x0 x1 (ix2 p q) = max (x0 (ix2 p q) + x1 (ix2 (0 : Fin 1) q)) (Ideal.ofBits .f32 0x00000000#32) := by
  unfold k3_pay1
  rw [shapeCast_self, shapeCast_self]
  show max (x0 (ix2 p q) + broadcastTo S5000x128 x1 broadcasts_S1x128_S5000x128 (ix2 p q)) (Ideal.ofBits .f32 0x00000000#32) = _
  rw [broadcastTo_apply x1 broadcasts_S1x128_S5000x128 (ix2 p q) (ix2 (0 : Fin 1) q) (fun a => by
        match a with
        | ⟨0, _⟩ => show (0 : ℕ) = if (1 : ℕ) = 1 then 0 else p.val; rw [if_pos rfl]
        | ⟨1, _⟩ => show q.val = if (128 : ℕ) = 1 then 0 else q.val; rw [if_neg (by decide)])]

/-- One block of the result is the matching rows of the whole-array form: if the staged block holds rows 5000·T …
    of the input array and the staged row is the bias row, the body's stored value at a block entry is the
    whole-array form at the entry 5000·T rows further down. -/
theorem block_is_rows3 (a : FVec Ideal S50000x128 .f32) (b : FVec Ideal S1x128 .f32)
    (x0 : Vec Ideal S5000x128 .f32) (x1 : Vec Ideal S1x128 .f32) (T : ℕ) (hT : T ≤ 9)
    (h0 : ∀ (p : Fin 5000) (q : Fin 128), x0 (ix2 p q) = a (ix2 (⟨T * 5000 + p.val, by omega⟩ : Fin 50000) q))
    (h1 : ∀ (q : Fin 128), x1 (ix2 (0 : Fin 1) q) = b (ix2 (0 : Fin 1) q))
    (j : S5000x128.Idx) (i : S50000x128.Idx) (hi0 : (i 0).val = T * 5000 + (j 0).val) (hi1 : (i 1).val = (j 1).val) :
    k3_pay1 (F := Ideal) x0 x1 j = wholeBiasRelu a b i := by
  obtain ⟨p, q, rfl⟩ : ∃ (p : Fin 5000) (q : Fin 128), j = ix2 p q := ⟨j 0, j 1, eq_ix2 j⟩
  have hi : i = ix2 (⟨T * 5000 + p.val, by omega⟩ : Fin 50000) q := by
    funext a; apply Fin.ext
    match a with
    | ⟨0, _⟩ => exact hi0
    | ⟨1, _⟩ => exact hi1
  rw [hi, blockBiasRelu3_apply, wholeBiasRelu_apply, h0, h1]

/-- The printed index maps over the ten grid points: the input window moves down with the output, the bias row
    stays, and the output's block row is below ten. -/
theorem index_facts3 : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every block row below ten is some point's. -/
theorem index_onto3 : ∀ q0 : Fin 10, ∃ t : Fin cfg3.N, win3_2.index t = ![q0.val, 0] :=
  (by decide +kernel : ∀ q0 : Fin 10, ∃ t : Fin grid3.N, win3_2.index t = ![q0.val, 0])

/-- What point t writes back is block t of the whole-array form of the region's two input arrays. -/
theorem flushed3_eq (c : Dev nD) (t : Fin cfg3.N) :
    (dat3 V c).flushed 2 t = ((cfg3.win 2).blk t).view.read (Elt Ideal) (wholeBiasRelu (V c main_v89) (V c main_v90)) := by
  show (cfg3.win 2).cut (grid3.coords t) ((dat3 V c).after 2 t) = _
  rw [after3_2]
  unfold out3_2
  rw [View.canon_unit_zero zero_offsets]
  simp only [View.ld_unit_zero (S := S5000x128) zero_offsets, View.ld_unit_zero (S := S1x128) zero_offsets]
  obtain ⟨e0, e1, e2, e3, e4, e5⟩ := index_facts3 t
  funext j
  refine block_is_rows3 (V c main_v89) (V c main_v90) (iblk3 V c 0 t) (iblk3 V c 1 t) (win3_2.index t (0 : Fin 2)) e5 ?_ ?_ j _ ?_ ?_
  · intro p q
    show V c main_v89 (((cfg3.win 0).blk t).view.emb (ix2 p q)) = _
    refine congrArg (V c main_v89) (funext fun a => Fin.ext ?_)
    match a with
    | ⟨0, _⟩ => show win3_0.index t (0 : Fin 2) * 5000 + 1 * p.val = win3_2.index t (0 : Fin 2) * 5000 + p.val; omega
    | ⟨1, _⟩ => show win3_0.index t (1 : Fin 2) * 128 + 1 * q.val = q.val; omega
  · intro q
    show V c main_v90 (((cfg3.win 1).blk t).view.emb (ix2 (0 : Fin 1) q)) = _
    refine congrArg (V c main_v90) (funext fun a => Fin.ext ?_)
    match a with
    | ⟨0, _⟩ => show win3_1.index t (0 : Fin 2) * 1 + 1 * 0 = 0; omega
    | ⟨1, _⟩ => show win3_1.index t (1 : Fin 2) * 128 + 1 * q.val = q.val; omega
  · show win3_2.index t (0 : Fin 2) * 5000 + 1 * (j 0).val = win3_2.index t (0 : Fin 2) * 5000 + (j 0).val; omega
  · show win3_2.index t (1 : Fin 2) * 128 + 1 * (j 1).val = (j 1).val; omega

/-- An index of the output array is in point t's block iff each coordinate is in the block's range on its axis. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v91).slice (win3_2.rect t)).set ↔ _
  rw [View.set_slice_whole, Rect.mem_set_unit]
  exact Iff.rfl

/-- The ten blocks fill the output array. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := index_onto3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the region its output array is the whole-array form of its two input arrays as the region found them. -/
theorem biasRelu_array3 (c : Dev nD) :
    (dat3 V c).arrAt 2 cfg3.N = wholeBiasRelu (V c main_v89) (V c main_v90) :=
  (dat3 V c).arrAt_eq_of_cover 2 (wholeBiasRelu (V c main_v89) (V c main_v90)) (fun t _ => flushed3_eq V c t) cover3

end Cert.KernelIdeal.Val

end
-- ==== Proof.KernelValue.lean ====
/-
  The value the idealized kernel's result buffer ends at, as a function of the seven argument arrays.

  The fold of @main's segments is walked backwards from the result buffer. A host stretch's effect at a buffer is
  the operation that wrote it applied to what its operands held; a buffer a stretch does not write is as before.
  A region leaves every buffer that is not one of its three arrays as it found it, and its output array at the
  whole-array form of its two input arrays: the whole product for a product region, bias and rectifier for the
  other two. Each region's output is stated as the stage of the same name in the reference program read one
  operation at a time: the host operations between the regions are the reference's own, operation for
  operation, so once a region's output is the reference's stage the next stretch carries one to the other.
-/
import proofs.«116983_j584115552914_1_alg».proof.Proof.Matmul0
import proofs.«116983_j584115552914_1_alg».proof.Proof.Matmul2
import proofs.«116983_j584115552914_1_alg».proof.Proof.BiasRelu1
import proofs.«116983_j584115552914_1_alg».proof.Proof.BiasRelu3
import proofs.«116983_j584115552914_1_alg».proof.Proof.Gen.ReferenceIdeal.Read

set_option maxRecDepth 16384

noncomputable section

namespace Cert.KernelIdeal.Val

open Cert.KernelIdeal Cert.KernelIdeal.Gen Idealize.ShloMosaic Idealize.ShloMosaic.TcCoe Idealize.SL.Sem
open Idealize.ShloMosaic.ValueIdx
open Idealize.ShloMosaic.Pipeline (Dat)

open Idealize.ShloMosaic.StableHlo (after_cons after_nil nullary_result' unary_result' binary_result' ternary_result' reshape_result'
  nullary_result_ne' unary_result_ne' binary_result_ne' ternary_result_ne' reshape_result_ne')

variable (m : (ℓ : Loc nD τ sig) → Buf (Elt Ideal) ℓ) (ρ : Dev nD → PrngReg) (c : Dev nD)

/-! ## A region leaves the other buffers alone -/

theorem across0 (b : Ref sig .tc) (hb : ∀ w, Pipeline.arrRef spec0 w ≠ b) :
    W4 m ρ c (no_index (Proc.devRef .tc b)) = W3 m ρ c (Proc.devRef .tc b) := W4_of_ne m ρ c b hb
theorem across1 (b : Ref sig .tc) (hb : ∀ w, Pipeline.arrRef spec1 w ≠ b) :
    W6 m ρ c (no_index (Proc.devRef .tc b)) = W5 m ρ c (Proc.devRef .tc b) := W6_of_ne m ρ c b hb
theorem across2 (b : Ref sig .tc) (hb : ∀ w, Pipeline.arrRef spec2 w ≠ b) :
    W10 m ρ c (no_index (Proc.devRef .tc b)) = W9 m ρ c (Proc.devRef .tc b) := W10_of_ne m ρ c b hb

/-- The launch contents of a buffer. -/
theorem at_launch (b : Ref sig .tc) : W0 m ρ c (no_index (Proc.devRef .tc b)) = m ((c : Thread nD τ).loc b) := rfl

/-! ## The two outlined selections

  Each layer's normalisation takes  where (deg > 0, rsqrt deg, 0)  through an outlined function of three operations,
  whose buffers carry their tensor types: reading one means transporting along an equation between a buffer's
  looked-up type and the tensor type, the identity for a literal buffer. Each of the two stretches is read here
  once, by itself; the walk below then steps over them. -/

/-- The first selection from any contents: its result buffer ends at the selection of what the stretch found in
    its three operands (the contents a variable, so that nothing but the three transports is opened). -/
theorem selection1_of (W : Valuation τ sig (Elt Ideal)) :
    StableHlo.after hostOps0_1 W (no_index (Proc.devRef .tc main_v15))
      = select (W (Proc.devRef .tc main_v13)) (W (Proc.devRef .tc main_v14))
          (broadcastInDim S50000 ![] bcast_S_S50000 (id (W (Proc.devRef .tc main_cst_2)))) := by
  simp (disch := decide) only [hostOps0_1, after_cons, after_nil, unary_result', ternary_result', unary_result_ne', ternary_result_ne']
  rfl

/-- The first selection writes three buffers and leaves the others. -/
theorem across_selection1_of (W : Valuation τ sig (Elt Ideal)) (b : Ref sig .tc) (hb : b ≠ main_call0_v0 ∧ b ≠ main_call0_v1 ∧ b ≠ main_v15) :
    StableHlo.after hostOps0_1 W (no_index (Proc.devRef .tc b)) = W (Proc.devRef .tc b) :=
  StableHlo.after_of_forall_not_mem (b := Proc.devRef .tc b) _ _ (List.forall_iff_forall_mem.mp (by
    simp only [hostOps0_1, List.Forall, StableHlo.unary_writes, StableHlo.ternary_writes, Finset.mem_singleton]
    exact ⟨StableHlo.devRef_ne_of_ne hb.1, StableHlo.devRef_ne_of_ne hb.2.1, StableHlo.devRef_ne_of_ne hb.2.2⟩))

/-- The second selection from any contents. -/
theorem selection2_of (W : Valuation τ sig (Elt Ideal)) :
    StableHlo.after hostOps2_1 W (no_index (Proc.devRef .tc main_v59))
      = select (W (Proc.devRef .tc main_v57)) (W (Proc.devRef .tc main_v58))
          (broadcastInDim S50000 ![] bcast_S_S50000 (id (W (Proc.devRef .tc main_cst_12)))) := by
  simp (disch := decide) only [hostOps2_1, after_cons, after_nil, unary_result', ternary_result', unary_result_ne', ternary_result_ne']
  rfl

/-- The second selection writes three buffers and leaves the others. -/
theorem across_selection2_of (W : Valuation τ sig (Elt Ideal)) (b : Ref sig .tc) (hb : b ≠ main_call1_v0 ∧ b ≠ main_call1_v1 ∧ b ≠ main_v59) :
    StableHlo.after hostOps2_1 W (no_index (Proc.devRef .tc b)) = W (Proc.devRef .tc b) :=
  StableHlo.after_of_forall_not_mem (b := Proc.devRef .tc b) _ _ (List.forall_iff_forall_mem.mp (by
    simp only [hostOps2_1, List.Forall, StableHlo.unary_writes, StableHlo.ternary_writes, Finset.mem_singleton]
    exact ⟨StableHlo.devRef_ne_of_ne hb.1, StableHlo.devRef_ne_of_ne hb.2.1, StableHlo.devRef_ne_of_ne hb.2.2⟩))

/-- The contents after the first selection, as a name of its own: the walk below steps over the stretch by the
    two facts that follow instead of opening it. -/
def afterSelection1 (W : Valuation τ sig (Elt Ideal)) : Valuation τ sig (Elt Ideal) := StableHlo.after hostOps0_1 W
theorem fold_selection1 (W : Valuation τ sig (Elt Ideal)) : StableHlo.after hostOps0_1 W = afterSelection1 W := rfl
theorem selection1 (W : Valuation τ sig (Elt Ideal)) :
    afterSelection1 W (no_index (Proc.devRef .tc main_v15))
      = select (W (Proc.devRef .tc main_v13)) (W (Proc.devRef .tc main_v14))
          (broadcastInDim S50000 ![] bcast_S_S50000 (id (W (Proc.devRef .tc main_cst_2)))) :=
  selection1_of W
theorem across_selection1 (W : Valuation τ sig (Elt Ideal)) (b : Ref sig .tc)
    (hb : b ≠ main_call0_v0 ∧ b ≠ main_call0_v1 ∧ b ≠ main_v15) :
    afterSelection1 W (no_index (Proc.devRef .tc b)) = W (Proc.devRef .tc b) :=
  across_selection1_of W b hb

/-- The contents after the second selection. -/
def afterSelection2 (W : Valuation τ sig (Elt Ideal)) : Valuation τ sig (Elt Ideal) := StableHlo.after hostOps2_1 W
theorem fold_selection2 (W : Valuation τ sig (Elt Ideal)) : StableHlo.after hostOps2_1 W = afterSelection2 W := rfl
theorem selection2 (W : Valuation τ sig (Elt Ideal)) :
    afterSelection2 W (no_index (Proc.devRef .tc main_v59))
      = select (W (Proc.devRef .tc main_v57)) (W (Proc.devRef .tc main_v58))
          (broadcastInDim S50000 ![] bcast_S_S50000 (id (W (Proc.devRef .tc main_cst_12)))) :=
  selection2_of W
theorem across_selection2 (W : Valuation τ sig (Elt Ideal)) (b : Ref sig .tc)
    (hb : b ≠ main_call1_v0 ∧ b ≠ main_call1_v1 ∧ b ≠ main_v59) :
    afterSelection2 W (no_index (Proc.devRef .tc b)) = W (Proc.devRef .tc b) :=
  across_selection2_of W b hb

/-- Two arrays joined along an axis, the two operands as arguments of their own: the list the library's join takes
    carries a side condition that depends on it, which keeps a rewrite out of the operands. -/
def joined {α : Type} (t : Shape) (ax : Fin t.rank) (s₁ s₂ : Shape) (a : s₁.Idx → α) (b : s₂.Idx → α)
    (h : Shape.Concatenates [s₁, s₂] t ax) : t.Idx → α := concatenate t ax [⟨s₁, a⟩, ⟨s₂, b⟩] h
theorem joined_def {α : Type} (t : Shape) (ax : Fin t.rank) (s₁ s₂ : Shape) (a : s₁.Idx → α) (b : s₂.Idx → α)
    (h : Shape.Concatenates [s₁, s₂] t ax) : concatenate t ax [⟨s₁, a⟩, ⟨s₂, b⟩] h = joined t ax s₁ s₂ a b h := rfl

/-- Walks a buffer's contents at a segment boundary back through the host stretches and across the regions, down
    to the launch memory, stopping at the regions' output arrays. -/
macro "walk_back" : tactic =>
  `(tactic| simp (disch := decide) only [↓joined_def, ↓fold_selection1, ↓fold_selection2, W11, W9, W7, W5, W3, W1, V11, V9, V5, V3,
      hostOps0, hostOps0_2, hostOps1, hostOps2, hostOps2_2, hostOps3,
      after_cons, after_nil, nullary_result', unary_result', binary_result', ternary_result', reshape_result',
      nullary_result_ne', unary_result_ne', binary_result_ne', ternary_result_ne', reshape_result_ne',
      across0, across1, across2, selection1, across_selection1, selection2, across_selection2, at_launch] <;> try unfold joined)

/-! ## The bias row -/

/-- A 128-vector reshaped to one row is the vector broadcast along the row's second axis. -/
theorem row_of_vector (b : FVec Ideal S128 .f32) :
    shapeCast S1x128 b shapeCasts_S128_S1x128
      = broadcastInDim Cert.ReferenceIdeal.S1x128 ![1] Cert.ReferenceIdeal.Gen.bcast_S128_S1x128_1 b := by
  funext j
  have hj0 : (j 0).val < 1 := (j 0).isLt
  rw [shapeCast_apply b shapeCasts_S128_S1x128 j (ix1 (j 1)) (by
        rw [Shape.rowMajor_val_one, Shape.rowMajor_val_two]
        show (j 1).val = (j 0).val * 128 + (j 1).val
        omega),
    broadcastInDim_apply ![1] Cert.ReferenceIdeal.Gen.bcast_S128_S1x128_1 b j (ix1 (j 1)) (fun a => by
        match a with
        | ⟨0, _⟩ => show (j 1).val = if (128 : ℕ) = 1 then 0 else (j 1).val; rw [if_neg (by decide)])]

/-! ## The first layer -/

/-- The first product region's output array is the reference's first product of the arguments. -/
theorem first_product :
    W4 m ρ c (Proc.devRef .tc main_v32)
      = Cert.ReferenceIdeal.Read.val_main_v32 (F := Ideal) (m ((c : Thread nD τ).loc main_arg0)) (m ((c : Thread nD τ).loc main_arg3)) := by
  rw [show W4 m ρ c (Proc.devRef .tc main_v32) = (dat0 (V3 m ρ) c).arrAt 2 cfg0.N from W4_arr m ρ c 2, product_array0]
  have e0 : V3 m ρ c main_arg0 = m ((c : Thread nD τ).loc main_arg0) := by walk_back
  have e3 : V3 m ρ c main_arg3 = m ((c : Thread nD τ).loc main_arg3) := by walk_back
  rw [e0, e3]
  rfl

set_option maxHeartbeats 4000000 in
/-- The first bias-and-rectifier region's output array is the reference's first layer: the aggregation of the first
    product over the edges (the host operations before the region, the reference's own) plus the bias row, rectified. -/
theorem first_layer :
    W6 m ρ c (Proc.devRef .tc main_v47)
      = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [show W6 m ρ c (Proc.devRef .tc main_v47) = (dat1 (V5 m ρ) c).arrAt 2 cfg1.N from W6_arr m ρ c 2, biasRelu_array1]
  have hagg : V5 m ρ c main_v45
      = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) := by
    walk_back
    rw [first_product]
    rfl
  have hrow : V5 m ρ c main_v46 = Cert.ReferenceIdeal.Read.val_main_v46 (F := Ideal) (m ((c : Thread nD τ).loc main_arg4)) := by
    walk_back
    exact row_of_vector _
  rw [hagg, hrow]
  rfl

/-! ## The second layer -/

/-- The second product region's output array is the reference's second product: of the first layer with the second
    weight array. -/
theorem second_product :
    W10 m ρ c (Proc.devRef .tc main_v76)
      = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [show W10 m ρ c (Proc.devRef .tc main_v76) = (dat2 (V9 m ρ) c).arrAt 2 cfg2.N from W10_arr m ρ c 2, product_array2]
  have hact : V9 m ρ c main_v47
      = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
    walk_back
    exact first_layer m ρ c
  have hw : V9 m ρ c main_arg5 = m ((c : Thread nD τ).loc main_arg5) := by walk_back
  rw [hact, hw]
  rfl

set_option maxHeartbeats 4000000 in
/-- The result buffer ends at the reference's result stage of the seven argument arrays. -/
theorem result_value :
    W12 m ρ c (Proc.devRef .tc main_v91)
      = Cert.ReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [show W12 m ρ c (Proc.devRef .tc main_v91) = (dat3 (V11 m ρ) c).arrAt 2 cfg3.N from W12_arr m ρ c 2, biasRelu_array3]
  have hagg : V11 m ρ c main_v89
      = Cert.ReferenceIdeal.Read.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
    walk_back
    rw [second_product]
    rfl
  have hrow : V11 m ρ c main_v90 = Cert.ReferenceIdeal.Read.val_main_v92 (F := Ideal) (m ((c : Thread nD τ).loc main_arg6)) := by
    walk_back
    exact row_of_vector _
  rw [hagg, hrow]
  rfl

end Cert.KernelIdeal.Val

end
-- ==== Proof.lean ====
/-
  A two-layer graph convolution, twice  out = relu (Â · (h · W) + b)  with  Â  the edge-weighted, self-looped,
  symmetrically normalised aggregation. The kernel's program computes the two products  h · W  and the two
  bias-and-rectifier steps in pipelined regions of ten row blocks each, and everything else (degrees, the
  normalisation, the gather of source rows, the scatter-add at targets) by the same host operations, in the same
  order, as the reference, which computes all of it on the host.

  At the ideal values a block product into a zero accumulator is the exact sum over the contraction index, the
  change of float format on the way in is the identity, and the ten blocks of a region fill its output, so each
  product region leaves the host's whole product of its two input arrays and each bias-and-rectifier region the
  host's broadcast-add-maximum of its two. Walking the program's buffers back from the result then meets the
  reference's own stages one after the other, and the two results are one function of the seven arguments. No law
  of arithmetic beyond reindexing a finite sum is used, so the inputs' finiteness is never opened.

  The three frames: the two kernel programs' are the launch over the program's segments; the reference's is its
  run with the result dropped. The idealization rewrote nothing, so the fourth conjunct is trivial.
-/
import proofs.«116983_j584115552914_1_alg».proof.Defs
import proofs.«116983_j584115552914_1_alg».proof.Proof.Gen.Kernel
import proofs.«116983_j584115552914_1_alg».proof.Proof.Gen.Kernel.Skeleton
import proofs.«116983_j584115552914_1_alg».proof.Proof.Gen.Kernel.Launch
import proofs.«116983_j584115552914_1_alg».proof.Proof.Gen.Kernel.Points
import proofs.«116983_j584115552914_1_alg».proof.Proof.Gen.Kernel.Frame
import proofs.«116983_j584115552914_1_alg».proof.Proof.Gen.KernelIdeal
import proofs.«116983_j584115552914_1_alg».proof.Proof.Gen.KernelIdeal.Skeleton
import proofs.«116983_j584115552914_1_alg».proof.Proof.Gen.KernelIdeal.Launch
import proofs.«116983_j584115552914_1_alg».proof.Proof.Gen.KernelIdeal.Points
import proofs.«116983_j584115552914_1_alg».proof.Proof.Gen.KernelIdeal.Frame
import proofs.«116983_j584115552914_1_alg».proof.Proof.Gen.ReferenceIdeal
import proofs.«116983_j584115552914_1_alg».proof.Proof.Gen.Pre_finite_inputs
import proofs.«116983_j584115552914_1_alg».proof.Proof.Gen.ReferenceIdeal.Run
import proofs.«116983_j584115552914_1_alg».proof.Proof.Gen.ReferenceIdeal.Read
import proofs.«116983_j584115552914_1_alg».proof.Proof.KernelRun
import proofs.«116983_j584115552914_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference has no kernel: its frame is its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's result stage of the (agreeing) argument arrays in their result buffers. -/
theorem algebraic : Cert.algebraic_KernelIdeal_ReferenceIdeal := by
  intro m ρ m' ρ' _ hagree
  refine ⟨fun c => Cert.KernelIdeal.Gen.W12 m ρ c (Proc.devRef .tc Cert.KernelIdeal.main_v91),
    Cert.KernelIdeal.Val.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v95_eq, h0, h1, h2, h3, h4, h5, h6]
  exact (Cert.KernelIdeal.Val.result_value m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
